-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S1x128 : Shape := ⟨2, ![1, 128]⟩
abbrev S128x64 : Shape := ⟨2, ![128, 64]⟩
abbrev S64 : Shape := ⟨1, ![64]⟩
abbrev S1x64 : Shape := ⟨2, ![1, 64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg9 : FVec F S32x4 .f32) (main_arg10 : FVec F S4 .f32) (main_v33 : IVec S_ 1) : IVec S_ 1 :=
  let main_v34 : FVec F S32x4 .f32 := Host.absf main_arg9
  let main_cst_12 : FVec F S_ .f32 := constant S_ .f32 0x7F800000#32
  let main_v35 : FVec F S32x4 .f32 := broadcastInDim S32x4 ![] bcast_S_S32x4 main_cst_12
  let main_v36 : IVec S32x4 1 := cmpf .olt main_v34 main_v35
  let main_c_13 : IVec S_ 1 := constantI S_ 1 1#1
  let main_v37 : IVec S_ 1 := (fun x v => Host.reduce IntOp.andi x v reducesTo_S32x4_S_d0_1 h_S_) main_v36 main_c_13
  let main_v38 : IVec S_ 1 := andi main_v33 main_v37
  let main_v39 : FVec F S4 .f32 := Host.absf main_arg10
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg6 : FVec F S1x64 .f32) (main_arg7 : FVec F S64x32 .f32) (main_arg8 : FVec F S32 .f32) (main_arg9 : FVec F S32x4 .f32) (main_arg10 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1x64 .f32 := Host.absf main_arg6
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S600000 32) (main_arg2 : IVec S600000 32) (main_arg3 : FVec F S1x128 .f32) (main_arg4 : FVec F S128x64 .f32) (main_arg5 : FVec F S64 .f32) (main_arg6 : FVec F S1x64 .f32) (main_arg7 : FVec F S64x32 .f32) (main_arg8 : FVec F S32 .f32) (main_arg9 : FVec F S32x4 .f32) (main_arg10 : FVec F S4 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S600000 : Shape := ⟨1, ![600000]⟩
abbrev S1x128 : Shape := ⟨2, ![1, 128]⟩
abbrev S128x64 : Shape := ⟨2, ![128, 64]⟩
abbrev S64 : Shape := ⟨1, ![64]⟩
abbrev S1x64 : Shape := ⟨2, ![1, 64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S_ : Shape := ⟨0, ![]⟩
abbrev S600000x1 : Shape := ⟨2, ![600000, 1]⟩
abbrev S600000x128 : Shape := ⟨2, ![600000, 128]⟩
abbrev S50000x64 : Shape := ⟨2, ![50000, 64]⟩
abbrev S5000x128 : Shape := ⟨2, ![5000, 128]⟩
abbrev S5000x64 : Shape := ⟨2, ![5000, 64]⟩
abbrev S600000x64 : Shape := ⟨2, ![600000, 64]⟩
abbrev S1x32 : Shape := ⟨2, ![1, 32]⟩
abbrev S1x4 : Shape := ⟨2, ![1, 4]⟩
abbrev S50000x4 : Shape := ⟨2, ![50000, 4]⟩
abbrev S5000x4 : Shape := ⟨2, ![5000, 4]⟩
abbrev S5000x32 : Shape := ⟨2, ![5000, 32]⟩
abbrev S5000 : Shape := ⟨1, ![5000]⟩
abbrev S5000x1 : Shape := ⟨2, ![5000, 1]⟩

abbrev nBuf : Space → Nat
  | .hbm => 42
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S1x128, .f32⟩
  | .hbm, ⟨4, _⟩ => ⟨S128x64, .f32⟩
  | .hbm, ⟨5, _⟩ => ⟨S64, .f32⟩
  | .hbm, ⟨6, _⟩ => ⟨S1x64, .f32⟩
  | .hbm, ⟨7, _⟩ => ⟨S64x32, .f32⟩
  | .hbm, ⟨8, _⟩ => ⟨S32, .f32⟩
  | .hbm, ⟨9, _⟩ => ⟨S32x4, .f32⟩
  | .hbm, ⟨10, _⟩ => ⟨S4, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S50000x128, .f32⟩
  | .hbm, ⟨22, _⟩ => ⟨S600000x1, .i32⟩
  | .hbm, ⟨23, _⟩ => ⟨S50000x128, .f32⟩
  | .hbm, ⟨24, _⟩ => ⟨S1x64, .f32⟩
  | .hbm, ⟨25, _⟩ => ⟨S50000x64, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x64, .f32⟩
  | .hbm, ⟨35, _⟩ => ⟨S_, .f32⟩
  | .hbm, ⟨36, _⟩ => ⟨S50000x64, .f32⟩
  | .hbm, ⟨37, _⟩ => ⟨S600000x1, .i32⟩
  | .hbm, ⟨38, _⟩ => ⟨S50000x64, .f32⟩
  | .hbm, ⟨39, _⟩ => ⟨S1x32, .f32⟩
  | .hbm, ⟨40, _⟩ => ⟨S1x4, .f32⟩
  | .hbm, ⟨41, _⟩ => ⟨S50000x4, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S128x64, .f32⟩
  | .local _ .vmem, ⟨4, _⟩ => ⟨S1x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S64x32, .f32⟩
  | .local _ .vmem, ⟨11, _⟩ => ⟨S1x32, .f32⟩
  | .local _ .vmem, ⟨12, _⟩ => ⟨S32x4, .f32⟩
  | .local _ .vmem, ⟨13, _⟩ => ⟨S1x4, .f32⟩
  | .local _ .vmem, ⟨14, _⟩ => ⟨S5000x4, .f32⟩
  | .local _ .vmem, ⟨15, _⟩ => ⟨S5000x4, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x4 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  broadcasts_S1x128_S5000x128 : S1x128.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S32_S1x32 : S32.ShapeCasts S1x32
  shapeCasts_S4_S1x4 : S4.ShapeCasts S1x4
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x4_S32x4_0_0 : ∀ a, (![0, 0] : Fin 2 → Nat) a + S32x4.size a ≤ S32x4.size a
  h_S32x4 : 0 < S32x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  reduces_S5000x4_S5000 : S5000x4.Reduces [1] S5000
  shapeCasts_S5000_S5000x1 : S5000.ShapeCasts S5000x1
  broadcasts_S5000x1_S5000x4 : S5000x1.Broadcasts S5000x4
  inb_S5000x4_S5000x4_0_0 : ∀ a, (![0, 0] : Fin 2 → Nat) a + S5000x4.size a ≤ S5000x4.size a
  h_S5000x4 : 0 < S5000x4.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x64_S5000x64_1_0_0_1_n_n_wf : DotDims.WF S5000x128 S128x64 S5000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S5000x64_S64x32_S5000x32_1_0_0_1_n_n_wf : DotDims.WF S5000x64 S64x32 S5000x32 [1] [0] [0] [1] [] []
  dot_S5000x32_S32x4_S5000x4_1_0_0_1_n_n_wf : DotDims.WF S5000x32 S32x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x4.size a ≤ S32x4.size a
  hwx1_4 : ∀ i : grid1.Coords, EltTy.bits .f32 = 32 ∨ (Rect.block (s := S32x4) S32x4.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x4.size a ≤ S1x4.size a
  hwx1_5 : ∀ i : grid1.Coords, EltTy.bits .f32 = 32 ∨ (Rect.block (s := S1x4) S1x4.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x4.size a ≤ S50000x4.size a
  hwx1_6 : ∀ i : grid1.Coords, EltTy.bits .f32 = 32 ∨ (Rect.block (s := S50000x4) S5000x4.size (cc1_transform_6 i) (hinb1_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x4_S5000x4_1_0_0_1_n_n : DotDims S5000x32 S32x4 S5000x4 where
  lhsContracting := [1]
  rhsContracting := [0]
  lhsNonContracting := [0]
  rhsNonContracting := [1]
  lhsBatch := []
  rhsBatch := []
  wf := dot_S5000x32_S32x4_S5000x4_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v21) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S32x4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x4.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S5000x4.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S1x128 : Shape := ⟨2, ![1, 128]⟩
abbrev S128x64 : Shape := ⟨2, ![128, 64]⟩
abbrev S64 : Shape := ⟨1, ![64]⟩
abbrev S1x64 : Shape := ⟨2, ![1, 64]⟩
abbrev S64x32 : Shape := ⟨2, ![64, 32]⟩
abbrev S32 : Shape := ⟨1, ![32]⟩
abbrev S32x4 : Shape := ⟨2, ![32, 4]⟩
abbrev S4 : Shape := ⟨1, ![4]⟩
abbrev S_ : Shape := ⟨0, ![]⟩
abbrev S600000x1 : Shape := ⟨2, ![600000, 1]⟩
abbrev S600000x128 : Shape := ⟨2, ![600000, 128]⟩
abbrev S50000x64 : Shape := ⟨2, ![50000, 64]⟩
abbrev S600000x64 : Shape := ⟨2, ![600000, 64]⟩
abbrev S50000x32 : Shape := ⟨2, ![50000, 32]⟩
abbrev S1x32 : Shape := ⟨2, ![1, 32]⟩
abbrev S50000x4 : Shape := ⟨2, ![50000, 4]⟩
abbrev S1x4 : Shape := ⟨2, ![1, 4]⟩
abbrev S50000 : Shape := ⟨1, ![50000]⟩
abbrev S50000x1 : Shape := ⟨2, ![50000, 1]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S1x128, .f32⟩
  | .hbm, ⟨4, _⟩ => ⟨S128x64, .f32⟩
  | .hbm, ⟨5, _⟩ => ⟨S64, .f32⟩
  | .hbm, ⟨6, _⟩ => ⟨S1x64, .f32⟩
  | .hbm, ⟨7, _⟩ => ⟨S64x32, .f32⟩
  | .hbm, ⟨8, _⟩ => ⟨S32, .f32⟩
  | .hbm, ⟨9, _⟩ => ⟨S32x4, .f32⟩
  | .hbm, ⟨10, _⟩ => ⟨S4, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S50000x128, .f32⟩
  | .hbm, ⟨22, _⟩ => ⟨S600000x1, .i32⟩
  | .hbm, ⟨23, _⟩ => ⟨S50000x128, .f32⟩
  | .hbm, ⟨24, _⟩ => ⟨S50000x128, .f32⟩
  | .hbm, ⟨25, _⟩ => ⟨S50000x128, .f32⟩
  | .hbm, ⟨26, _⟩ => ⟨S50000x64, .f32⟩
  | .hbm, ⟨27, _⟩ => ⟨S1x64, .f32⟩
  | .hbm, ⟨28, _⟩ => ⟨S50000x64, .f32⟩
  | .hbm, ⟨29, _⟩ => ⟨S50000x64, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x64, .f32⟩
  | .hbm, ⟨39, _⟩ => ⟨S_, .f32⟩
  | .hbm, ⟨40, _⟩ => ⟨S50000x64, .f32⟩
  | .hbm, ⟨41, _⟩ => ⟨S600000x1, .i32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S50000x32, .f32⟩
  | .hbm, ⟨46, _⟩ => ⟨S1x32, .f32⟩
  | .hbm, ⟨47, _⟩ => ⟨S50000x32, .f32⟩
  | .hbm, ⟨48, _⟩ => ⟨S50000x32, .f32⟩
  | .hbm, ⟨49, _⟩ => ⟨S50000x4, .f32⟩
  | .hbm, ⟨50, _⟩ => ⟨S1x4, .f32⟩
  | .hbm, ⟨51, _⟩ => ⟨S50000x4, .f32⟩
  | .hbm, ⟨52, _⟩ => ⟨S50000x4, .f32⟩
  | .hbm, ⟨53, _⟩ => ⟨S_, .f32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S50000x1, .f32⟩
  | .hbm, ⟨59, _⟩ => ⟨S50000x4, .f32⟩
  | .hbm, ⟨60, _⟩ => ⟨S50000x4, .f32⟩
  | .hbm, ⟨61, _⟩ => ⟨S50000x4, .f32⟩
  | .hbm, ⟨62, _⟩ => ⟨S_, .f32⟩
  | .hbm, ⟨63, _⟩ => ⟨S50000, .f32⟩
  | .hbm, ⟨64, _⟩ => ⟨S50000x1, .f32⟩
  | .hbm, ⟨65, _⟩ => ⟨S50000x4, .f32⟩
  | .hbm, ⟨66, _⟩ => ⟨S50000x4, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  reducesTo_S50000x4_S50000_d1 : S50000x4.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x4_0_1 : S50000x1.BroadcastsInDim S50000x4 (![0, 1] : Fin 2 → Fin S50000x4.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S50000x64_S64x32_S50000x32_1_0_0_1_n_n_wf : DotDims.WF S50000x64 S64x32 S50000x32 [1] [0] [0] [1] [] []
  dot_S50000x32_S32x4_S50000x4_1_0_0_1_n_n_wf : DotDims.WF S50000x32 S32x4 S50000x4 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x4_S50000x4_1_0_0_1_n_n : DotDims S50000x32 S32x4 S50000x4 where
  lhsContracting := [1]
  rhsContracting := [0]
  lhsNonContracting := [0]
  rhsNonContracting := [1]
  lhsBatch := []
  rhsBatch := []
  wf := dot_S50000x32_S32x4_S50000x4_1_0_0_1_n_n_wf

class Facts : Prop extends Facts₀ where

variable [Facts]
-- ==== Proof.Spec.lean ====
/-
  What both programs compute on ONE node (one row of the node arrays), as functions of that row and of the
  layer parameters, over the extended reals.

  Layer 1: the aggregated features of the node are scaled feature by feature, contracted with the
  128 x 64 weight matrix and shifted by the bias.  Layer 2: the same with the 64 x 32 matrix, then a
  second contraction with the 32 x 4 matrix and its bias, and a softmax over the four logits: each logit
  less the row's maximum, exponentiated, divided by the sum of the four exponentials.

  Every function here takes a ROW, so it says nothing about how the rows are tiled: a block of 5000 rows and
  the whole array of 50000 rows are read through it alike.
-/
import Idealize.ShloMosaic.PureOps.Ideal
import Idealize.ShloMosaic.PureOps.Ideal.Laws
import Idealize.ShloMosaic.Lib.ValueIdx

noncomputable section

namespace Cert.NodeRows

open Idealize.ShloMosaic

/-- The first dense layer on one node: output feature `j` is the sum over the 128 input features of
    (aggregate x scale) x weight, plus the bias. -/
def layer1 (a w : Fin 128 → EReal) (W : Fin 128 → Fin 64 → EReal) (b : Fin 64 → EReal) (j : Fin 64) : EReal :=
  (∑ k : Fin 128, a k * w k * W k j) + b j

/-- The second dense layer on one node: hidden feature `j` from the 64 aggregated features. -/
def hidden (a w : Fin 64 → EReal) (W : Fin 64 → Fin 32 → EReal) (b : Fin 32 → EReal) (j : Fin 32) : EReal :=
  (∑ k : Fin 64, a k * w k * W k j) + b j

/-- The four logits of one node from its 32 hidden features. -/
def logits (h : Fin 32 → EReal) (W : Fin 32 → Fin 4 → EReal) (b : Fin 4 → EReal) (j : Fin 4) : EReal :=
  (∑ k : Fin 32, h k * W k j) + b j

/-- The value both programs start a maximum from: the float pattern of minus infinity. -/
def bottom : EReal := Ideal.ofBits .f32 0xFF800000#32

/-- The largest of the four logits (both programs fold `max` from `bottom`, then take `max` with `bottom` once more). -/
def rowMax (z : Fin 4 → EReal) : EReal := max bottom ((Finset.univ : Finset (Fin 4)).fold max bottom z)

/-- One logit shifted by the row's maximum and exponentiated. -/
def shiftedExp (z : Fin 4 → EReal) (j : Fin 4) : EReal := Ideal.exp (z j - rowMax z)

/-- The softmax of the four logits at class `j`. -/
def softmax (z : Fin 4 → EReal) (j : Fin 4) : EReal :=
  Ideal.div (shiftedExp z j) (∑ k : Fin 4, shiftedExp z k)

/-- The whole second stage on one node: hidden layer, logits, softmax. -/
def layer2 (a w : Fin 64 → EReal) (W : Fin 64 → Fin 32 → EReal) (b : Fin 32 → EReal)
    (Wo : Fin 32 → Fin 4 → EReal) (bo : Fin 4 → EReal) (j : Fin 4) : EReal :=
  softmax (logits (hidden a w W b) Wo bo) j

/-! ## On every node of an array

  The node arrays have 50000 rows; row `r` of the result depends on row `r` of the aggregate only.  The biases are
  taken as functions of the feature, so that a bias stored as a vector and one stored as a one-row matrix are read alike. -/

open ValueIdx

/-- The first dense layer on each of the 50000 nodes. -/
def nodes1 (A : (⟨2, ![50000, 128]⟩ : Shape).Idx → EReal) (w : (⟨2, ![1, 128]⟩ : Shape).Idx → EReal)
    (W : (⟨2, ![128, 64]⟩ : Shape).Idx → EReal) (b : Fin 64 → EReal) : (⟨2, ![50000, 64]⟩ : Shape).Idx → EReal :=
  fun i => layer1 (fun k => A (ix2 (⟨(i 0).val, (i 0).isLt⟩ : Fin 50000) k)) (fun k => w (ix2 (0 : Fin 1) k))
    (fun k j => W (ix2 k j)) b ⟨(i 1).val, (i 1).isLt⟩

theorem nodes1_apply (A : (⟨2, ![50000, 128]⟩ : Shape).Idx → EReal) (w : (⟨2, ![1, 128]⟩ : Shape).Idx → EReal)
    (W : (⟨2, ![128, 64]⟩ : Shape).Idx → EReal) (b : Fin 64 → EReal) (r : Fin 50000) (j : Fin 64) :
    nodes1 A w W b (ix2 r j)
      = layer1 (fun k => A (ix2 r k)) (fun k => w (ix2 (0 : Fin 1) k)) (fun k j => W (ix2 k j)) b j := rfl

/-- The second stage on each of the 50000 nodes. -/
def nodes2 (A : (⟨2, ![50000, 64]⟩ : Shape).Idx → EReal) (w : (⟨2, ![1, 64]⟩ : Shape).Idx → EReal)
    (W : (⟨2, ![64, 32]⟩ : Shape).Idx → EReal) (b : Fin 32 → EReal) (Wo : (⟨2, ![32, 4]⟩ : Shape).Idx → EReal) (bo : Fin 4 → EReal) :
    (⟨2, ![50000, 4]⟩ : Shape).Idx → EReal :=
  fun i => layer2 (fun k => A (ix2 (⟨(i 0).val, (i 0).isLt⟩ : Fin 50000) k)) (fun k => w (ix2 (0 : Fin 1) k))
    (fun k j => W (ix2 k j)) b (fun k j => Wo (ix2 k j)) bo ⟨(i 1).val, (i 1).isLt⟩

theorem nodes2_apply (A : (⟨2, ![50000, 64]⟩ : Shape).Idx → EReal) (w : (⟨2, ![1, 64]⟩ : Shape).Idx → EReal)
    (W : (⟨2, ![64, 32]⟩ : Shape).Idx → EReal) (b : Fin 32 → EReal) (Wo : (⟨2, ![32, 4]⟩ : Shape).Idx → EReal) (bo : Fin 4 → EReal)
    (r : Fin 50000) (j : Fin 4) :
    nodes2 A w W b Wo bo (ix2 r j)
      = layer2 (fun k => A (ix2 r k)) (fun k => w (ix2 (0 : Fin 1) k)) (fun k j => W (ix2 k j)) b (fun k j => Wo (ix2 k j)) bo j := rfl

end Cert.NodeRows

end
-- ==== Proof.Pay0.lean ====
/-
  The first kernel's stored value, one node at a time.  A block holds 5000 nodes; the body scales the block by the
  one-row scale vector, contracts it with the 128 x 64 weights (the bf16 casts are the identity on exact values) and
  adds the one-row bias.  Read at row `p`, column `j`, that is the first dense layer of the node in row `p`.
-/
import proofs.«112523_j14242111554120_1_alg».proof.Proof.Gen.KernelIdeal.Skeleton
import proofs.«112523_j14242111554120_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx

/-! ### The 5000 x 128 by 128 x 64 product read at an index -/

theorem lhs_d1_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_d1_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_d1_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_d1_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Into a zero accumulator the product at row `p`, column `j` is the sum over the contracted axis of the
    left operand's row `p` times the right operand's column `j`. -/
theorem matmul_d1 (l : FVec Ideal S5000x128 .bf16) (r : FVec Ideal S128x64 .bf16) (p : Fin 5000) (j : Fin 64) :
    matmul dot_S5000x128_S128x64_S5000x64_1_0_0_1_n_n none l r (constant S5000x64 .f32 0x00000000#32) (ix2 p j)
      = ∑ k : Fin 128, l (ix2 p k) * r (ix2 k j) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p j) ((ValueIdx.contrEquiv1 dot_S5000x128_S128x64_S5000x64_1_0_0_1_n_n 128 rfl rfl).symm k) = ix2 p k := funext fun a => Fin.ext (by
    match a with
    | ⟨0, _⟩ => exact lhs_d1_0 _ _
    | ⟨1, _⟩ => exact (lhs_d1_1 _ _).trans hk)
  have er : dot_S5000x128_S128x64_S5000x64_1_0_0_1_n_n.rhsIdx (ix2 p j) ((ValueIdx.contrEquiv1 dot_S5000x128_S128x64_S5000x64_1_0_0_1_n_n 128 rfl rfl).symm k) = ix2 k j := funext fun a => Fin.ext (by
    match a with
    | ⟨0, _⟩ => exact (rhs_d1_0 _ _).trans hk
    | ⟨1, _⟩ => exact rhs_d1_1 _ _)
  rw [el, er]

/-- The first kernel's stored value at node `p` of the block, feature `j`. -/
theorem pay0_row (v0 : Vec Ideal S5000x128 .f32) (v2 : Vec Ideal S1x128 .f32) (v6 : Vec Ideal S128x64 .f32) (v9 : Vec Ideal S1x64 .f32)
    (p : Fin 5000) (j : Fin 64) :
    k0_pay1 (F := Ideal) v0 v2 v6 v9 (ix2 p j)
      = NodeRows.layer1 (fun k => v0 (ix2 p k)) (fun k => v2 (ix2 (0 : Fin 1) k)) (fun k j => v6 (ix2 k j)) (fun j => v9 (ix2 (0 : Fin 1) j)) j := by
  unfold k0_pay1 NodeRows.layer1
  dsimp only
  rw [addf_apply, matmul_d1, shapeCast_self, shapeCast_self, broadcastTo_1b_ab_apply]
  refine congrArg (· + _) (Finset.sum_congr rfl fun k _ => ?_)
  rw [truncf_apply, truncf_apply, mulf_apply, broadcastTo_1b_ab_apply]

end Cert.KernelIdeal.Rows

end
-- ==== Proof.Blocks0.lean ====
/-
  What the first region leaves in its result array.  The region's ten grid points each write one block of 5000 node
  rows; point `t` reads rows 5000 t .. 5000 t + 4999 of the aggregate and the whole of each parameter array, so the
  block it writes is the first dense layer of exactly those nodes, and the ten blocks tile the 50000 rows.
-/
import proofs.«112523_j14242111554120_1_alg».proof.Proof.Gen.KernelIdeal.Frame
import proofs.«112523_j14242111554120_1_alg».proof.Proof.Pay0
import Idealize.ShloMosaic.Lib.Pipeline.Value

noncomputable section

set_option maxRecDepth 16384

namespace Cert.KernelIdeal.Arrays0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The first dense layer of every node, from the arrays the region finds: the aggregate, the scale row, the weights
    and the one-row bias. -/
abbrev result0 (c : Dev nD) : S50000x64.Idx → EReal :=
  NodeRows.nodes1 (V c main_v9) (V c main_arg3) (V c main_arg4) (fun j => V c main_v10 (ix2 (0 : Fin 1) j))

/-- The printed index maps over the grid: the aggregate's and the result's block index is the grid point, every
    parameter window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- One node of one block: if the loaded blocks are the arrays' rows (row `p` of the aggregate's block being row `r`
    of the aggregate), the stored value at row `p` is the first dense layer of node `r`. -/
theorem block_row (A : S50000x128.Idx → EReal) (w : S1x128.Idx → EReal) (W : S128x64.Idx → EReal) (b : S1x64.Idx → EReal)
    (x0 : Vec Ideal S5000x128 .f32) (x1 : Vec Ideal S1x128 .f32) (x2 : Vec Ideal S128x64 .f32) (x3 : Vec Ideal S1x64 .f32)
    (r : Fin 50000) (p : Fin 5000) (j : Fin 64)
    (h0 : ∀ k : Fin 128, x0 (ix2 p k) = A (ix2 r k)) (h1 : ∀ k : Fin 128, x1 (ix2 (0 : Fin 1) k) = w (ix2 (0 : Fin 1) k))
    (h2 : ∀ (k : Fin 128) (j : Fin 64), x2 (ix2 k j) = W (ix2 k j)) (h3 : ∀ j : Fin 64, x3 (ix2 (0 : Fin 1) j) = b (ix2 (0 : Fin 1) j)) :
    k0_pay1 (F := Ideal) x0 x1 x2 x3 (ix2 p j) = NodeRows.nodes1 A w W (fun j => b (ix2 (0 : Fin 1) j)) (ix2 r j) := by
  rw [Rows.pay0_row, NodeRows.nodes1_apply]
  simp only [h0, h1, h2, h3]

/-- What point `t` writes back is block `t` of the first dense layer of every node. -/
theorem flushed_eq (c : Dev nD) (t : Fin cfg0.N) :
    (dat0 V c).flushed 4 t = ((cfg0.win 4).blk t).view.read (Elt Ideal) (result0 V c) := by
  show (cfg0.win 4).cut (grid0.coords t) ((dat0 V c).after 4 t) = _
  rw [after0_4]
  unfold out0_4
  rw [View.canon_unit_zero hz]
  simp only [View.ld_unit_zero (S := S5000x128) hz, View.ld_unit_zero (S := S1x128) hz, View.ld_unit_zero (S := S128x64) hz,
    View.ld_unit_zero (S := S1x64) hz]
  obtain ⟨e00, e01, e10, e11, e20, e21, e30, e31, e40, e41⟩ := idx_facts t
  have hN : t.val < 10 := by have h : t.val < grid0.N := t.isLt; rw [N_0] at h; exact h
  funext y
  obtain ⟨p, j, rfl⟩ : ∃ (p : Fin 5000) (j : Fin 64), y = ix2 p j := ⟨y 0, y 1, eq_ix2 y⟩
  have hr : t.val * 5000 + p.val < 50000 := by have := p.isLt; omega
  show k0_pay1 (F := Ideal) (iblk0 V c 0 t) (iblk0 V c 1 t) (iblk0 V c 2 t) (iblk0 V c 3 t) (ix2 p j)
      = result0 V c (((cfg0.win 4).blk t).view.emb (ix2 p j))
  have hemb : ((cfg0.win 4).blk t).view.emb (ix2 p j) = ix2 (⟨t.val * 5000 + p.val, hr⟩ : Fin 50000) j := by
    funext a; apply Fin.ext
    match a with
    | ⟨0, _⟩ => show win0_4.index t (0 : Fin 2) * 5000 + 1 * p.val = t.val * 5000 + p.val; omega
    | ⟨1, _⟩ => show win0_4.index t (1 : Fin 2) * 64 + 1 * j.val = j.val; omega
  rw [hemb]
  refine block_row (V c main_v9) (V c main_arg3) (V c main_arg4) (V c main_v10)
    (iblk0 V c 0 t) (iblk0 V c 1 t) (iblk0 V c 2 t) (iblk0 V c 3 t) ⟨t.val * 5000 + p.val, hr⟩ p j ?_ ?_ ?_ ?_
  · intro k
    show V c main_v9 (((cfg0.win 0).blk t).view.emb (ix2 p k)) = V c main_v9 (ix2 (⟨t.val * 5000 + p.val, hr⟩ : Fin 50000) k)
    refine congrArg (V c main_v9) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k
    show V c main_arg3 (((cfg0.win 1).blk t).view.emb (ix2 (0 : Fin 1) k)) = V c main_arg3 (ix2 (0 : Fin 1) k)
    refine congrArg (V c main_arg3) (funext fun a => Fin.ext ?_)
    match a with
    | ⟨0, _⟩ => show win0_1.index t (0 : Fin 2) * 1 + 1 * 0 = 0; omega
    | ⟨1, _⟩ => show win0_1.index t (1 : Fin 2) * 128 + 1 * k.val = k.val; omega
  · intro k j'
    show V c main_arg4 (((cfg0.win 2).blk t).view.emb (ix2 k j')) = V c main_arg4 (ix2 k j')
    refine congrArg (V c main_arg4) (funext fun a => Fin.ext ?_)
    match a with
    | ⟨0, _⟩ => show win0_2.index t (0 : Fin 2) * 128 + 1 * k.val = k.val; omega
    | ⟨1, _⟩ => show win0_2.index t (1 : Fin 2) * 64 + 1 * j'.val = j'.val; omega
  · intro j'
    show V c main_v10 (((cfg0.win 3).blk t).view.emb (ix2 (0 : Fin 1) j')) = V c main_v10 (ix2 (0 : Fin 1) j')
    refine congrArg (V c main_v10) (funext fun a => Fin.ext ?_)
    match a with
    | ⟨0, _⟩ => show win0_3.index t (0 : Fin 2) * 1 + 1 * 0 = 0; omega
    | ⟨1, _⟩ => show win0_3.index t (1 : Fin 2) * 64 + 1 * j'.val = j'.val; omega

/-- An index of the result array is in point `t`'s block iff each coordinate is in the block's range on its axis. -/
theorem mem_blk (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v11).slice (win0_4.rect t)).set ↔ _
  rw [View.set_slice_whole, Rect.mem_set_unit]
  exact Iff.rfl

/-- The ten blocks tile the 50000 rows: row `r` lies in the block of point `r / 5000`. -/
theorem cover (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  have hq : (i 0).val / 5000 < grid0.N := by rw [N_0]; omega
  obtain ⟨-, -, -, -, -, -, -, -, e40, e41⟩ := idx_facts ⟨(i 0).val / 5000, hq⟩
  have e40' : win0_4.index ⟨(i 0).val / 5000, hq⟩ (0 : Fin 2) = (i 0).val / 5000 := e40
  refine ⟨⟨(i 0).val / 5000, hq⟩, flush0_4 _, ?_⟩
  rw [mem_blk]
  intro a
  match a with
  | ⟨0, _⟩ =>
    show win0_4.index ⟨(i 0).val / 5000, hq⟩ (0 : Fin 2) * 5000 ≤ (i 0).val
      ∧ (i 0).val < win0_4.index ⟨(i 0).val / 5000, hq⟩ (0 : Fin 2) * 5000 + 5000
    omega
  | ⟨1, _⟩ =>
    show win0_4.index ⟨(i 0).val / 5000, hq⟩ (1 : Fin 2) * 64 ≤ (i 1).val
      ∧ (i 1).val < win0_4.index ⟨(i 0).val / 5000, hq⟩ (1 : Fin 2) * 64 + 64
    omega

/-- The result array after the region: the first dense layer of every node. -/
theorem final (c : Dev nD) : (dat0 V c).arrAt 4 cfg0.N = result0 V c :=
  (dat0 V c).arrAt_eq_of_cover 4 (result0 V c) (fun t _ => flushed_eq V c t) cover

end Cert.KernelIdeal.Arrays0

end
-- ==== Proof.Pay1.lean ====
/-
  The second kernel's stored value, one node at a time.  A block holds 5000 nodes; the body scales the block by the
  one-row scale vector, contracts with the 64 x 32 weights and adds the bias (the hidden layer), contracts again with
  the 32 x 4 weights and adds the bias (the logits), and normalises each row of four logits by a softmax: the row's
  maximum (a lane reduction from minus infinity) is subtracted, the differences are exponentiated, and each is
  divided by the row's sum of the four exponentials.  Read at row `p`, column `j`, that is the second stage of the
  node in row `p`.
-/
import proofs.«112523_j14242111554120_1_alg».proof.Proof.Gen.KernelIdeal.Skeleton
import proofs.«112523_j14242111554120_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows2

open Cert.KernelIdeal Cert.KernelIdeal.Gen Idealize.ShloMosaic Idealize.ShloMosaic.ValueIdx

/-! ### The 5000 x 64 by 64 x 32 product read at an index -/

theorem lhs_d2_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs_d2_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs_d2_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs_d2_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- Into a zero accumulator the product at row `p`, column `j` is the sum over the contracted axis of the
    left operand's row `p` times the right operand's column `j`. -/
theorem matmul_d2 (l : FVec Ideal S5000x64 .bf16) (r : FVec Ideal S64x32 .bf16) (p : Fin 5000) (j : Fin 32) :
    matmul dot_S5000x64_S64x32_S5000x32_1_0_0_1_n_n none l r (constant S5000x32 .f32 0x00000000#32) (ix2 p j)
      = ∑ k : Fin 64, l (ix2 p k) * r (ix2 k j) := by
  simp only [matmul]
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p j) ((ValueIdx.contrEquiv1 dot_S5000x64_S64x32_S5000x32_1_0_0_1_n_n 64 rfl rfl).symm k) = ix2 p k := funext fun a => Fin.ext (by
    match a with
    | ⟨0, _⟩ => exact lhs_d2_0 _ _
    | ⟨1, _⟩ => exact (lhs_d2_1 _ _).trans hk)
  have er : dot_S5000x64_S64x32_S5000x32_1_0_0_1_n_n.rhsIdx (ix2 p j) ((ValueIdx.contrEquiv1 dot_S5000x64_S64x32_S5000x32_1_0_0_1_n_n 64 rfl rfl).symm k) = ix2 k j := funext fun a => Fin.ext (by
    match a with
    | ⟨0, _⟩ => exact (rhs_d2_0 _ _).trans hk
    | ⟨1, _⟩ => exact rhs_d2_1 _ _)
  rw [el, er]

/-! ### The 5000 x 32 by 32 x 4 product read at an index -/

theorem lhs_d3_0 (i : S5000x4.Idx) (q : dot_S5000x32_S32x4_S5000x4_1_0_0_1_n_n.contr.Idx) :
    (dot_S5000x32_S32x4_S5000x4_1_0_0_1_n_n.lhsIdx i q 0).val = (i 0).val := by
  unfold DotDims.lhsIdx
  rw [dif_neg (show ¬(0 : Fin S5000x32.rank) ∈ dot_S5000x32_S32x4_S5000x4_1_0_0_1_n_n.lhsBatch by decide), dif_pos (show (0 : Fin S5000x32.rank) ∈ dot_S5000x32_S32x4_S5000x4_1_0_0_1_n_n.lhsNonContracting by decide)]
  rfl
theorem lhs_d3_1 (i : S5000x4.Idx) (q : dot_S5000x32_S32x4_S5000x4_1_0_0_1_n_n.contr.Idx) :
    (dot_S5000x32_S32x4_S5000x4_1_0_0_1_n_n.lhsIdx i q 1).val = (q ⟨0, by decide⟩).val :=
  dot_S5000x32_S32x4_S5000x4_1_0_0_1_n_n.lhsIdx_val_of_single rfl i q
theorem rhs_d3_0 (i : S5000x4.Idx) (q : dot_S5000x32_S32x4_S5000x4_1_0_0_1_n_n.contr.Idx) :
    (dot_S5000x32_S32x4_S5000x4_1_0_0_1_n_n.rhsIdx i q 0).val = (q ⟨0, by decide⟩).val :=
  dot_S5000x32_S32x4_S5000x4_1_0_0_1_n_n.rhsIdx_val_of_single rfl i q
theorem rhs_d3_1 (i : S5000x4.Idx) (q : dot_S5000x32_S32x4_S5000x4_1_0_0_1_n_n.contr.Idx) :
    (dot_S5000x32_S32x4_S5000x4_1_0_0_1_n_n.rhsIdx i q 1).val = (i 1).val := by
  unfold DotDims.rhsIdx
  rw [dif_neg (show ¬(1 : Fin S32x4.rank) ∈ dot_S5000x32_S32x4_S5000x4_1_0_0_1_n_n.rhsBatch by decide), dif_pos (show (1 : Fin S32x4.rank) ∈ dot_S5000x32_S32x4_S5000x4_1_0_0_1_n_n.rhsNonContracting by decide)]
  rfl

/-- Into a zero accumulator the product at row `p`, column `j` is the sum over the contracted axis of the
    left operand's row `p` times the right operand's column `j`. -/
theorem matmul_d3 (l : FVec Ideal S5000x32 .bf16) (r : FVec Ideal S32x4 .bf16) (p : Fin 5000) (j : Fin 4) :
    matmul dot_S5000x32_S32x4_S5000x4_1_0_0_1_n_n none l r (constant S5000x4 .f32 0x00000000#32) (ix2 p j)
      = ∑ k : Fin 32, l (ix2 p k) * r (ix2 k j) := by
  simp only [matmul]
  rw [Ideal.matmul_constant_zero_apply, ← Equiv.sum_comp (ValueIdx.contrEquiv1 dot_S5000x32_S32x4_S5000x4_1_0_0_1_n_n 32 rfl rfl).symm]
  refine Finset.sum_congr rfl fun k _ => ?_
  have hk := ValueIdx.contrEquiv1_symm_val dot_S5000x32_S32x4_S5000x4_1_0_0_1_n_n 32 rfl rfl k
  have el : dot_S5000x32_S32x4_S5000x4_1_0_0_1_n_n.lhsIdx (ix2 p j) ((ValueIdx.contrEquiv1 dot_S5000x32_S32x4_S5000x4_1_0_0_1_n_n 32 rfl rfl).symm k) = ix2 p k := funext fun a => Fin.ext (by
    match a with
    | ⟨0, _⟩ => exact lhs_d3_0 _ _
    | ⟨1, _⟩ => exact (lhs_d3_1 _ _).trans hk)
  have er : dot_S5000x32_S32x4_S5000x4_1_0_0_1_n_n.rhsIdx (ix2 p j) ((ValueIdx.contrEquiv1 dot_S5000x32_S32x4_S5000x4_1_0_0_1_n_n 32 rfl rfl).symm k) = ix2 k j := funext fun a => Fin.ext (by
    match a with
    | ⟨0, _⟩ => exact (rhs_d3_0 _ _).trans hk
    | ⟨1, _⟩ => exact rhs_d3_1 _ _)
  rw [el, er]

/-! ### The hidden layer and the logits of node `p` -/

theorem hidden_blk (v0 : Vec Ideal S5000x64 .f32) (v2 : Vec Ideal S1x64 .f32) (v6 : Vec Ideal S64x32 .f32) (v9 : Vec Ideal S1x32 .f32)
    (p : Fin 5000) (j : Fin 32) :
    addf (F := Ideal) (matmul dot_S5000x64_S64x32_S5000x32_1_0_0_1_n_n none
        (truncf .bf16 (mulf (shapeCast S5000x64 v0 shapeCasts_S5000x64_S5000x64) (broadcastTo S5000x64 v2 broadcasts_S1x64_S5000x64)) bitsLt_bf16_f32)
        (truncf .bf16 v6 bitsLt_bf16_f32) (constant S5000x32 .f32 0x00000000#32))
      (broadcastTo S5000x32 (shapeCast S1x32 v9 shapeCasts_S1x32_S1x32) broadcasts_S1x32_S5000x32) (ix2 p j)
    = NodeRows.hidden (fun k => v0 (ix2 p k)) (fun k => v2 (ix2 (0 : Fin 1) k)) (fun k j => v6 (ix2 k j)) (fun j => v9 (ix2 (0 : Fin 1) j)) j := by
  unfold NodeRows.hidden
  rw [addf_apply, matmul_d2, shapeCast_self, shapeCast_self, broadcastTo_1b_ab_apply]
  refine congrArg (· + _) (Finset.sum_congr rfl fun k _ => ?_)
  rw [truncf_apply, truncf_apply, mulf_apply, broadcastTo_1b_ab_apply]

theorem logits_blk (h : FVec Ideal S5000x32 .f32) (v14 : Vec Ideal S32x4 .f32) (v17 : Vec Ideal S1x4 .f32) (p : Fin 5000) (j : Fin 4) :
    addf (F := Ideal) (matmul dot_S5000x32_S32x4_S5000x4_1_0_0_1_n_n none (truncf .bf16 h bitsLt_bf16_f32) (truncf .bf16 v14 bitsLt_bf16_f32)
        (constant S5000x4 .f32 0x00000000#32))
      (broadcastTo S5000x4 (shapeCast S1x4 v17 shapeCasts_S1x4_S1x4) broadcasts_S1x4_S5000x4) (ix2 p j)
    = NodeRows.logits (fun k => h (ix2 p k)) (fun k j => v14 (ix2 k j)) (fun j => v17 (ix2 (0 : Fin 1) j)) j := by
  unfold NodeRows.logits
  rw [addf_apply, matmul_d3, shapeCast_self, broadcastTo_1b_ab_apply]
  refine congrArg (· + _) (Finset.sum_congr rfl fun k _ => ?_)
  rw [truncf_apply, truncf_apply]

/-! ### The keepdims column forms: a per-row value laid along the row's four lanes -/

/-- A `[5000]` vector cast to `[5000, 1]` and broadcast to `[5000, 4]` reads, at `(p, j)`, the vector at `p`. -/
theorem column_apply (x : S5000.Idx → EReal) (p : Fin 5000) (j : Fin 4) :
    broadcastTo S5000x4 (shapeCast S5000x1 x shapeCasts_S5000_S5000x1) broadcasts_S5000x1_S5000x4 (ix2 p j) = x (ix1 p) := by
  rw [broadcastTo_apply _ broadcasts_S5000x1_S5000x4 (ix2 p j) (ix2 p (0 : Fin 1)) (fun a => by
    match a with
    | ⟨0, _⟩ => show p.val = if (5000 : Nat) = 1 then 0 else p.val; rw [if_neg (by decide)]
    | ⟨1, _⟩ => show 0 = if (1 : Nat) = 1 then 0 else j.val; rw [if_pos rfl])]
  exact shapeCast_apply x shapeCasts_S5000_S5000x1 (ix2 p (0 : Fin 1)) (ix1 p) (by
    rw [Shape.rowMajor_val_two, Shape.rowMajor_val_one]
    show p.val = p.val * 1 + 0
    omega)

/-- The lane index a reduction over axis 1 inserts: row `p`, lane `k`. -/
theorem lift_row (p : Fin 5000) (k : Fin 4) : reduces_S5000x4_S5000.lift (ix1 p) k = ix2 p k :=
  funext fun a => Fin.ext (by match a with | ⟨0, _⟩ => rfl | ⟨1, _⟩ => rfl)

/-! ### The softmax of node `p` -/

/-- The body's row maximum: the lane reduction from minus infinity, then `max` with minus infinity once more. -/
abbrev rowMaxVec (z : FVec Ideal S5000x4 .f32) (hφ : FKind.Formats .f32)
    (h1 : (0xFF800000#32 : BitVec FTy.f32.bits) = FKind.maximumf.neutral .f32 hφ) : FVec Ideal S5000 .f32 :=
  maximumf (broadcast S5000 (Scalar.ofBits .f32 0xFF800000#32))
    (multiReduction .maximumf [1] S5000 z 0xFF800000#32 reduces_S5000x4_S5000 hφ h1)

theorem rowMaxVec_apply (z : FVec Ideal S5000x4 .f32) (hφ : FKind.Formats .f32)
    (h1 : (0xFF800000#32 : BitVec FTy.f32.bits) = FKind.maximumf.neutral .f32 hφ) (p : Fin 5000) :
    rowMaxVec z hφ h1 (ix1 p) = NodeRows.rowMax (fun k => z (ix2 p k)) := by
  have e : (z ∘ reduces_S5000x4_S5000.lift (ix1 p)) = fun k => z (ix2 p k) := funext fun k => congrArg z (lift_row p k)
  refine congrArg (max _) ((Ideal.multiReduction_maximumf_single z _ reduces_S5000x4_S5000 hφ h1 (ix1 p)).trans ?_)
  rw [e]
  rfl

/-- The body's softmax, read at node `p`, class `j`. -/
theorem softmax_blk (z : FVec Ideal S5000x4 .f32) (hφ : FKind.Formats .f32)
    (h1 : (0xFF800000#32 : BitVec FTy.f32.bits) = FKind.maximumf.neutral .f32 hφ)
    (h2 : (0x00000000#32 : BitVec FTy.f32.bits) = FKind.add.neutral .f32 hφ) (p : Fin 5000) (j : Fin 4) :
    divf (F := Ideal) (exp (subf z (broadcastTo S5000x4 (shapeCast S5000x1 (rowMaxVec z hφ h1) shapeCasts_S5000_S5000x1) broadcasts_S5000x1_S5000x4)))
      (broadcastTo S5000x4 (shapeCast S5000x1
        (multiReduction .add [1] S5000
          (exp (subf z (broadcastTo S5000x4 (shapeCast S5000x1 (rowMaxVec z hφ h1) shapeCasts_S5000_S5000x1) broadcasts_S5000x1_S5000x4)))
          0x00000000#32 reduces_S5000x4_S5000 hφ h2)
        shapeCasts_S5000_S5000x1) broadcasts_S5000x1_S5000x4) (ix2 p j)
    = NodeRows.softmax (fun k => z (ix2 p k)) j := by
  have hE : ∀ k : Fin 4,
      exp (subf z (broadcastTo S5000x4 (shapeCast S5000x1 (rowMaxVec z hφ h1) shapeCasts_S5000_S5000x1) broadcasts_S5000x1_S5000x4)) (ix2 p k)
        = NodeRows.shiftedExp (fun k => z (ix2 p k)) k := fun k => by
    show Ideal.exp (z (ix2 p k)
      - broadcastTo S5000x4 (shapeCast S5000x1 (rowMaxVec z hφ h1) shapeCasts_S5000_S5000x1) broadcasts_S5000x1_S5000x4 (ix2 p k)) = _
    rw [column_apply, rowMaxVec_apply]
    rfl
  unfold NodeRows.softmax
  rw [divf_apply, hE j, column_apply]
  refine congrArg (Ideal.div _) ((Ideal.multiReduction_add_single _ _ reduces_S5000x4_S5000 hφ h2 (ix1 p)).trans
    (Finset.sum_congr rfl fun k _ => ?_))
  exact (congrArg
    (exp (subf z (broadcastTo S5000x4 (shapeCast S5000x1 (rowMaxVec z hφ h1) shapeCasts_S5000_S5000x1) broadcasts_S5000x1_S5000x4)))
    (lift_row p k)).trans (hE k)

/-- The second kernel's stored value at node `p` of the block, class `j`. -/
theorem pay1_row (v0 : Vec Ideal S5000x64 .f32) (v2 : Vec Ideal S1x64 .f32) (v6 : Vec Ideal S64x32 .f32) (v9 : Vec Ideal S1x32 .f32)
    (v14 : Vec Ideal S32x4 .f32) (v17 : Vec Ideal S1x4 .f32) (p : Fin 5000) (j : Fin 4) :
    k1_pay1 (F := Ideal) v0 v2 v6 v9 v14 v17 (ix2 p j)
      = NodeRows.layer2 (fun k => v0 (ix2 p k)) (fun k => v2 (ix2 (0 : Fin 1) k)) (fun k j => v6 (ix2 k j)) (fun j => v9 (ix2 (0 : Fin 1) j))
          (fun k j => v14 (ix2 k j)) (fun j => v17 (ix2 (0 : Fin 1) j)) j := by
  unfold k1_pay1 NodeRows.layer2
  dsimp only
  refine (softmax_blk _ _ _ _ p j).trans (congrArg (fun z => NodeRows.softmax z j) (funext fun k => ?_))
  refine (logits_blk _ v14 v17 p k).trans (congrArg (fun h => NodeRows.logits h _ _ k) (funext fun k2 => ?_))
  exact hidden_blk v0 v2 v6 v9 p k2

end Cert.KernelIdeal.Rows2

end
-- ==== Proof.Blocks1.lean ====
/-
  What the second region leaves in its result array.  The region's ten grid points each write one block of 5000 node
  rows; point `t` reads rows 5000 t .. 5000 t + 4999 of the second aggregate and the whole of each parameter array,
  so the block it writes is the second stage (hidden layer, logits, softmax) of exactly those nodes, and the ten
  blocks tile the 50000 rows.
-/
import proofs.«112523_j14242111554120_1_alg».proof.Proof.Gen.KernelIdeal.Frame
import proofs.«112523_j14242111554120_1_alg».proof.Proof.Pay1
import Idealize.ShloMosaic.Lib.Pipeline.Value

noncomputable section

set_option maxRecDepth 16384

namespace Cert.KernelIdeal.Arrays1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The second stage of every node, from the arrays the region finds: the second aggregate, the scale row, the two
    weight matrices and the two one-row biases. -/
abbrev result1 (c : Dev nD) : S50000x4.Idx → EReal :=
  NodeRows.nodes2 (V c main_v21) (V c main_arg6) (V c main_arg7) (fun j => V c main_v22 (ix2 (0 : Fin 1) j))
    (V c main_arg9) (fun j => V c main_v23 (ix2 (0 : Fin 1) j))

/-- The printed index maps over the grid: the aggregate's and the result's block index is the grid point, every
    parameter window stays at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- One node of one block: if the loaded blocks are the arrays' rows (row `p` of the aggregate's block being row `r`
    of the aggregate), the stored value at row `p` is the second stage of node `r`. -/
theorem block_row (A : S50000x64.Idx → EReal) (w : S1x64.Idx → EReal) (W : S64x32.Idx → EReal) (b : S1x32.Idx → EReal)
    (Wo : S32x4.Idx → EReal) (bo : S1x4.Idx → EReal)
    (x0 : Vec Ideal S5000x64 .f32) (x1 : Vec Ideal S1x64 .f32) (x2 : Vec Ideal S64x32 .f32) (x3 : Vec Ideal S1x32 .f32)
    (x4 : Vec Ideal S32x4 .f32) (x5 : Vec Ideal S1x4 .f32)
    (r : Fin 50000) (p : Fin 5000) (j : Fin 4)
    (h0 : ∀ k : Fin 64, x0 (ix2 p k) = A (ix2 r k)) (h1 : ∀ k : Fin 64, x1 (ix2 (0 : Fin 1) k) = w (ix2 (0 : Fin 1) k))
    (h2 : ∀ (k : Fin 64) (j : Fin 32), x2 (ix2 k j) = W (ix2 k j)) (h3 : ∀ j : Fin 32, x3 (ix2 (0 : Fin 1) j) = b (ix2 (0 : Fin 1) j))
    (h4 : ∀ (k : Fin 32) (j : Fin 4), x4 (ix2 k j) = Wo (ix2 k j)) (h5 : ∀ j : Fin 4, x5 (ix2 (0 : Fin 1) j) = bo (ix2 (0 : Fin 1) j)) :
    k1_pay1 (F := Ideal) x0 x1 x2 x3 x4 x5 (ix2 p j)
      = NodeRows.nodes2 A w W (fun j => b (ix2 (0 : Fin 1) j)) Wo (fun j => bo (ix2 (0 : Fin 1) j)) (ix2 r j) := by
  rw [Rows2.pay1_row, NodeRows.nodes2_apply]
  simp only [h0, h1, h2, h3, h4, h5]

/-- What point `t` writes back is block `t` of the second stage of every node. -/
theorem flushed_eq (c : Dev nD) (t : Fin cfg1.N) :
    (dat1 V c).flushed 6 t = ((cfg1.win 6).blk t).view.read (Elt Ideal) (result1 V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S1x64) hz, View.ld_unit_zero (S := S64x32) hz,
    View.ld_unit_zero (S := S1x32) hz, View.ld_unit_zero (S := S32x4) hz, View.ld_unit_zero (S := S1x4) hz]
  obtain ⟨e00, e01, e10, e11, e20, e21, e30, e31, e40, e41, e50, e51, e60, e61⟩ := idx_facts t
  have hN : t.val < 10 := by have h : t.val < grid1.N := t.isLt; rw [N_1] at h; exact h
  funext y
  obtain ⟨p, j, rfl⟩ : ∃ (p : Fin 5000) (j : Fin 4), y = ix2 p j := ⟨y 0, y 1, eq_ix2 y⟩
  have hr : t.val * 5000 + p.val < 50000 := by have := p.isLt; omega
  show k1_pay1 (F := Ideal) (iblk1 V c 0 t) (iblk1 V c 1 t) (iblk1 V c 2 t) (iblk1 V c 3 t) (iblk1 V c 4 t) (iblk1 V c 5 t) (ix2 p j)
      = result1 V c (((cfg1.win 6).blk t).view.emb (ix2 p j))
  have hemb : ((cfg1.win 6).blk t).view.emb (ix2 p j) = ix2 (⟨t.val * 5000 + p.val, hr⟩ : Fin 50000) j := by
    funext a; apply Fin.ext
    match a with
    | ⟨0, _⟩ => show win1_6.index t (0 : Fin 2) * 5000 + 1 * p.val = t.val * 5000 + p.val; omega
    | ⟨1, _⟩ => show win1_6.index t (1 : Fin 2) * 4 + 1 * j.val = j.val; omega
  rw [hemb]
  refine block_row (V c main_v21) (V c main_arg6) (V c main_arg7) (V c main_v22) (V c main_arg9) (V c main_v23)
    (iblk1 V c 0 t) (iblk1 V c 1 t) (iblk1 V c 2 t) (iblk1 V c 3 t) (iblk1 V c 4 t) (iblk1 V c 5 t)
    ⟨t.val * 5000 + p.val, hr⟩ p j ?_ ?_ ?_ ?_ ?_ ?_
  · intro k
    show V c main_v21 (((cfg1.win 0).blk t).view.emb (ix2 p k)) = V c main_v21 (ix2 (⟨t.val * 5000 + p.val, hr⟩ : Fin 50000) k)
    refine congrArg (V c main_v21) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · intro k
    show V c main_arg6 (((cfg1.win 1).blk t).view.emb (ix2 (0 : Fin 1) k)) = V c main_arg6 (ix2 (0 : Fin 1) k)
    refine congrArg (V c main_arg6) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · intro k j'
    show V c main_arg7 (((cfg1.win 2).blk t).view.emb (ix2 k j')) = V c main_arg7 (ix2 k j')
    refine congrArg (V c main_arg7) (funext fun a => Fin.ext ?_)
    match a with
    | ⟨0, _⟩ => show win1_2.index t (0 : Fin 2) * 64 + 1 * k.val = k.val; omega
    | ⟨1, _⟩ => show win1_2.index t (1 : Fin 2) * 32 + 1 * j'.val = j'.val; omega
  · intro j'
    show V c main_v22 (((cfg1.win 3).blk t).view.emb (ix2 (0 : Fin 1) j')) = V c main_v22 (ix2 (0 : Fin 1) j')
    refine congrArg (V c main_v22) (funext fun a => Fin.ext ?_)
    match a with
    | ⟨0, _⟩ => show win1_3.index t (0 : Fin 2) * 1 + 1 * 0 = 0; omega
    | ⟨1, _⟩ => show win1_3.index t (1 : Fin 2) * 32 + 1 * j'.val = j'.val; omega
  · intro k j'
    show V c main_arg9 (((cfg1.win 4).blk t).view.emb (ix2 k j')) = V c main_arg9 (ix2 k j')
    refine congrArg (V c main_arg9) (funext fun a => Fin.ext ?_)
    match a with
    | ⟨0, _⟩ => show win1_4.index t (0 : Fin 2) * 32 + 1 * k.val = k.val; omega
    | ⟨1, _⟩ => show win1_4.index t (1 : Fin 2) * 4 + 1 * j'.val = j'.val; omega
  · intro j'
    show V c main_v23 (((cfg1.win 5).blk t).view.emb (ix2 (0 : Fin 1) j')) = V c main_v23 (ix2 (0 : Fin 1) j')
    refine congrArg (V c main_v23) (funext fun a => Fin.ext ?_)
    match a with
    | ⟨0, _⟩ => show win1_5.index t (0 : Fin 2) * 1 + 1 * 0 = 0; omega
    | ⟨1, _⟩ => show win1_5.index t (1 : Fin 2) * 4 + 1 * j'.val = j'.val; omega

/-- An index of the result array is in point `t`'s block iff each coordinate is in the block's range on its axis. -/
theorem mem_blk (t : Fin cfg1.N) (i : S50000x4.Idx) :
    i ∈ ((cfg1.win 6).blk t).view.set ↔ ∀ a : Fin 2, win1_6.index t a * S5000x4.size a ≤ (i a).val ∧ (i a).val < win1_6.index t a * S5000x4.size a + S5000x4.size a := by
  show i ∈ ((View.whole main_v24).slice (win1_6.rect t)).set ↔ _
  rw [View.set_slice_whole, Rect.mem_set_unit]
  exact Iff.rfl

/-- The ten blocks tile the 50000 rows: row `r` lies in the block of point `r / 5000`. -/
theorem cover (i : S50000x4.Idx) : ∃ t : Fin cfg1.N, (cfg1.win 6).flush t = true ∧ i ∈ ((cfg1.win 6).blk t).view.set := by
  have hi0 : (i 0).val < 50000 := (i 0).isLt
  have hi1 : (i 1).val < 4 := (i 1).isLt
  have hq : (i 0).val / 5000 < grid1.N := by rw [N_1]; omega
  obtain ⟨-, -, -, -, -, -, -, -, -, -, -, -, e60, e61⟩ := idx_facts ⟨(i 0).val / 5000, hq⟩
  have e60' : win1_6.index ⟨(i 0).val / 5000, hq⟩ (0 : Fin 2) = (i 0).val / 5000 := e60
  refine ⟨⟨(i 0).val / 5000, hq⟩, flush1_6 _, ?_⟩
  rw [mem_blk]
  intro a
  match a with
  | ⟨0, _⟩ =>
    show win1_6.index ⟨(i 0).val / 5000, hq⟩ (0 : Fin 2) * 5000 ≤ (i 0).val
      ∧ (i 0).val < win1_6.index ⟨(i 0).val / 5000, hq⟩ (0 : Fin 2) * 5000 + 5000
    omega
  | ⟨1, _⟩ =>
    show win1_6.index ⟨(i 0).val / 5000, hq⟩ (1 : Fin 2) * 4 ≤ (i 1).val
      ∧ (i 1).val < win1_6.index ⟨(i 0).val / 5000, hq⟩ (1 : Fin 2) * 4 + 4
    omega

/-- The result array after the region: the second stage of every node. -/
theorem final (c : Dev nD) : (dat1 V c).arrAt 6 cfg1.N = result1 V c :=
  (dat1 V c).arrAt_eq_of_cover 6 (result1 V c) (fun t _ => flushed_eq V c t) cover

end Cert.KernelIdeal.Arrays1

end
-- ==== Proof.HostSide.lean ====
/-
  What each kernel region finds in the arrays it reads.  Before the first region the host gathers the node
  features along the edge sources (a negative source counts from the end) and adds each gathered row into the row
  of its edge's destination, from zero: the first aggregate.  Between the regions it does the same with the first
  region's result: the second aggregate.  The biases are recast from vectors to one-row matrices; every other
  parameter is as launched.
-/
import proofs.«112523_j14242111554120_1_alg».proof.Proof.Gen.KernelIdeal.Frame
import Idealize.ShloMosaic.Lib.StableHlo.Run

noncomputable section

set_option maxRecDepth 16384

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The edge sources as gather indices: a negative source has 50000 added, and the vector is laid as one column. -/
def sources (s : (⟨S600000, .i32⟩ : BufTy).Contents (Elt F)) : (⟨S600000x1, .i32⟩ : BufTy).Contents (Elt F) :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- The first aggregate: the rows of `x` gathered along the sources, added from zero into the destinations' rows. -/
def aggregate128 (x : (⟨S50000x128, .f32⟩ : BufTy).Contents (Elt F)) (s d : (⟨S600000, .i32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 d)
    (Host.gather gather_S50000x128_S600000x1_S600000x128_1_0_n_n_0_1_1128 x (sources s))

/-- The second aggregate: the same over the 64 features of `h`. -/
def aggregate64 (h : (⟨S50000x64, .f32⟩ : BufTy).Contents (Elt F)) (s d : (⟨S600000, .i32⟩ : BufTy).Contents (Elt F)) :
    (⟨S50000x64, .f32⟩ : BufTy).Contents (Elt F) :=
  Host.scatterAdd scatter_S50000x64_S600000x1_S600000x64_1_0_0_1
    (broadcastInDim S50000x64 ![] bcast_S_S50000x64 (constant S_ .f32 0x00000000#32))
    (broadcastInDim S600000x1 ![0] bcast_S600000_S600000x1_0 d)
    (Host.gather gather_S50000x64_S600000x1_S600000x64_1_0_n_n_0_1_164 h (sources s))

variable (m : (ℓ : Loc nD τ sig) → Buf (Elt F) ℓ) (ρ : Dev nD → PrngReg)

/-! ## At the first region's entry -/

theorem entry0_aggregate (c : Dev nD) :
    V1 m ρ c main_v9 = aggregate128 (m ((c.tc : Thread nD τ).loc main_arg0)) (m ((c.tc : Thread nD τ).loc main_arg1)) (m ((c.tc : Thread nD τ).loc main_arg2)) := by
  show StableHlo.after hostOps0 (W0 m ρ c) (Proc.devRef .tc main_v9) = _
  after_results
  rfl

theorem entry0_scale (c : Dev nD) : V1 m ρ c main_arg3 = (m ((c.tc : Thread nD τ).loc main_arg3)) := by
  show StableHlo.after hostOps0 (W0 m ρ c) (Proc.devRef .tc main_arg3) = _
  after_results

theorem entry0_weights (c : Dev nD) : V1 m ρ c main_arg4 = (m ((c.tc : Thread nD τ).loc main_arg4)) := by
  show StableHlo.after hostOps0 (W0 m ρ c) (Proc.devRef .tc main_arg4) = _
  after_results

theorem entry0_bias (c : Dev nD) : V1 m ρ c main_v10 = shapeCast S1x64 (m ((c.tc : Thread nD τ).loc main_arg5)) shapeCasts_S64_S1x64 := by
  show StableHlo.after hostOps0 (W0 m ρ c) (Proc.devRef .tc main_v10) = _
  after_results
  rfl

/-! ## Between the regions: an argument is as launched, the first region's result is what its write-backs leave -/

theorem mid_launch (c : Dev nD) (b : Ref sig .tc) (hb : ∀ w, Pipeline.arrRef spec0 w ≠ b)
    (h0 : StableHlo.after hostOps0 (W0 m ρ c) (Proc.devRef .tc b) = m ((c.tc : Thread nD τ).loc b)) :
    W2 m ρ c (Proc.devRef .tc b) = m ((c.tc : Thread nD τ).loc b) :=
  (W2_of_ne m ρ c b hb).trans h0

theorem mid_arg1 (c : Dev nD) : W2 m ρ c (Proc.devRef .tc main_arg1) = (m ((c.tc : Thread nD τ).loc main_arg1)) :=
  mid_launch m ρ c main_arg1 (by decide) (by after_results)
theorem mid_arg2 (c : Dev nD) : W2 m ρ c (Proc.devRef .tc main_arg2) = (m ((c.tc : Thread nD τ).loc main_arg2)) :=
  mid_launch m ρ c main_arg2 (by decide) (by after_results)
theorem mid_arg6 (c : Dev nD) : W2 m ρ c (Proc.devRef .tc main_arg6) = (m ((c.tc : Thread nD τ).loc main_arg6)) :=
  mid_launch m ρ c main_arg6 (by decide) (by after_results)
theorem mid_arg7 (c : Dev nD) : W2 m ρ c (Proc.devRef .tc main_arg7) = (m ((c.tc : Thread nD τ).loc main_arg7)) :=
  mid_launch m ρ c main_arg7 (by decide) (by after_results)
theorem mid_arg8 (c : Dev nD) : W2 m ρ c (Proc.devRef .tc main_arg8) = (m ((c.tc : Thread nD τ).loc main_arg8)) :=
  mid_launch m ρ c main_arg8 (by decide) (by after_results)
theorem mid_arg9 (c : Dev nD) : W2 m ρ c (Proc.devRef .tc main_arg9) = (m ((c.tc : Thread nD τ).loc main_arg9)) :=
  mid_launch m ρ c main_arg9 (by decide) (by after_results)
theorem mid_arg10 (c : Dev nD) : W2 m ρ c (Proc.devRef .tc main_arg10) = (m ((c.tc : Thread nD τ).loc main_arg10)) :=
  mid_launch m ρ c main_arg10 (by decide) (by after_results)

theorem mid_result (c : Dev nD) : W2 m ρ c (Proc.devRef .tc main_v11) = (dat0 (V1 m ρ) c).arrAt 4 cfg0.N :=
  W2_arr m ρ c 4

/-! ## At the second region's entry -/

theorem entry1_aggregate (c : Dev nD) :
    V3 m ρ c main_v21 = aggregate64 (W2 m ρ c (Proc.devRef .tc main_v11)) (m ((c.tc : Thread nD τ).loc main_arg1)) (m ((c.tc : Thread nD τ).loc main_arg2)) := by
  show StableHlo.after hostOps1 (W2 m ρ c) (Proc.devRef .tc main_v21) = _
  after_results
  rw [mid_arg1, mid_arg2]
  rfl

theorem entry1_scale (c : Dev nD) : V3 m ρ c main_arg6 = (m ((c.tc : Thread nD τ).loc main_arg6)) := by
  show StableHlo.after hostOps1 (W2 m ρ c) (Proc.devRef .tc main_arg6) = _
  after_results
  exact mid_arg6 m ρ c

theorem entry1_weights (c : Dev nD) : V3 m ρ c main_arg7 = (m ((c.tc : Thread nD τ).loc main_arg7)) := by
  show StableHlo.after hostOps1 (W2 m ρ c) (Proc.devRef .tc main_arg7) = _
  after_results
  exact mid_arg7 m ρ c

theorem entry1_bias (c : Dev nD) : V3 m ρ c main_v22 = shapeCast S1x32 (m ((c.tc : Thread nD τ).loc main_arg8)) shapeCasts_S32_S1x32 := by
  show StableHlo.after hostOps1 (W2 m ρ c) (Proc.devRef .tc main_v22) = _
  after_results
  rw [mid_arg8]
  rfl

theorem entry1_out_weights (c : Dev nD) : V3 m ρ c main_arg9 = (m ((c.tc : Thread nD τ).loc main_arg9)) := by
  show StableHlo.after hostOps1 (W2 m ρ c) (Proc.devRef .tc main_arg9) = _
  after_results
  exact mid_arg9 m ρ c

theorem entry1_out_bias (c : Dev nD) : V3 m ρ c main_v23 = shapeCast S1x4 (m ((c.tc : Thread nD τ).loc main_arg10)) shapeCasts_S4_S1x4 := by
  show StableHlo.after hostOps1 (W2 m ρ c) (Proc.devRef .tc main_v23) = _
  after_results
  rw [mid_arg10]
  rfl

/-- At the end the result array holds what the second region's write-backs leave. -/
theorem end_result (c : Dev nD) : W4 m ρ c (Proc.devRef .tc main_v24) = (dat1 (V3 m ρ) c).arrAt 6 cfg1.N :=
  W4_arr m ρ c 6

end Cert.KernelIdeal.Host

end
-- ==== Proof.KernelValue.lean ====
/-
  The idealized kernel's result as ONE function of the launch arrays.  The host builds the first aggregate, the first
  region leaves the first dense layer of every node of it, the host builds the second aggregate from that, and the
  second region leaves the second stage of every node of it.  The biases, recast by the host from vectors to one-row
  matrices, are read back at the vectors.
-/
import proofs.«112523_j14242111554120_1_alg».proof.Proof.RunNamed
import proofs.«112523_j14242111554120_1_alg».proof.Proof.Blocks0
import proofs.«112523_j14242111554120_1_alg».proof.Proof.Blocks1
import proofs.«112523_j14242111554120_1_alg».proof.Proof.HostSide
import Idealize.ShloMosaic.Lib.ValueLayout

noncomputable section

set_option maxRecDepth 16384

namespace Cert.KernelIdeal.Result

open Cert.KernelIdeal Cert.KernelIdeal.Gen Idealize.ShloMosaic Idealize.ShloMosaic.TcCoe Idealize.ShloMosaic.ValueIdx Idealize.SL.Sem

/-- The result of the whole program from the eleven launch arrays. -/
def out (x : (⟨S50000x128, .f32⟩ : BufTy).Contents (Elt Ideal)) (s d : (⟨S600000, .i32⟩ : BufTy).Contents (Elt Ideal))
    (w1 : (⟨S1x128, .f32⟩ : BufTy).Contents (Elt Ideal)) (W1 : (⟨S128x64, .f32⟩ : BufTy).Contents (Elt Ideal))
    (b1 : (⟨S64, .f32⟩ : BufTy).Contents (Elt Ideal)) (w2 : (⟨S1x64, .f32⟩ : BufTy).Contents (Elt Ideal))
    (W2 : (⟨S64x32, .f32⟩ : BufTy).Contents (Elt Ideal)) (b2 : (⟨S32, .f32⟩ : BufTy).Contents (Elt Ideal))
    (Wo : (⟨S32x4, .f32⟩ : BufTy).Contents (Elt Ideal)) (bo : (⟨S4, .f32⟩ : BufTy).Contents (Elt Ideal)) :
    (⟨S50000x4, .f32⟩ : BufTy).Contents (Elt Ideal) :=
  NodeRows.nodes2
    (Host.aggregate64 (NodeRows.nodes1 (Host.aggregate128 x s d) w1 W1 (fun j => b1 (ix1 j))) s d)
    w2 W2 (fun j => b2 (ix1 j)) Wo (fun j => bo (ix1 j))

variable (m : (ℓ : Loc nD τ sig) → Buf (Elt Ideal) ℓ) (ρ : Dev nD → PrngReg)

/-- After the first region its result array holds the first dense layer of every node of the first aggregate. -/
theorem first_result (c : Dev nD) :
    (dat0 (V1 m ρ) c).arrAt 4 cfg0.N
      = NodeRows.nodes1 (Host.aggregate128 (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) (fun j => (m ((c.tc : Thread nD τ).loc main_arg5)) (ix1 j)) := by
  refine (Arrays0.final (V1 m ρ) c).trans ?_
  show NodeRows.nodes1 (V1 m ρ c main_v9) (V1 m ρ c main_arg3) (V1 m ρ c main_arg4) (fun j => V1 m ρ c main_v10 (ix2 (0 : Fin 1) j)) = _
  rw [Host.entry0_aggregate, Host.entry0_scale, Host.entry0_weights, Host.entry0_bias]
  refine congrArg (NodeRows.nodes1 _ _ _) (funext fun j => ?_)
  exact shapeCast_a_1a_apply _ shapeCasts_S64_S1x64 (0 : Fin 1) j

/-- At the end the result array holds the second stage of every node of the second aggregate. -/
theorem result (c : Dev nD) :
    W4 m ρ c (Proc.devRef .tc main_v24) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (Host.end_result m ρ c).trans ((Arrays1.final (V3 m ρ) c).trans ?_)
  show NodeRows.nodes2 (V3 m ρ c main_v21) (V3 m ρ c main_arg6) (V3 m ρ c main_arg7) (fun j => V3 m ρ c main_v22 (ix2 (0 : Fin 1) j))
      (V3 m ρ c main_arg9) (fun j => V3 m ρ c main_v23 (ix2 (0 : Fin 1) j)) = _
  rw [Host.entry1_aggregate, Host.mid_result, first_result, Host.entry1_scale, Host.entry1_weights, Host.entry1_bias,
    Host.entry1_out_weights, Host.entry1_out_bias]
  unfold out
  have h2 : (fun j : Fin 32 => shapeCast S1x32 (m ((c.tc : Thread nD τ).loc main_arg8)) shapeCasts_S32_S1x32 (ix2 (0 : Fin 1) j))
      = fun j => (m ((c.tc : Thread nD τ).loc main_arg8)) (ix1 j) := funext fun j => shapeCast_a_1a_apply _ shapeCasts_S32_S1x32 (0 : Fin 1) j
  have h3 : (fun j : Fin 4 => shapeCast S1x4 (m ((c.tc : Thread nD τ).loc main_arg10)) shapeCasts_S4_S1x4 (ix2 (0 : Fin 1) j))
      = fun j => (m ((c.tc : Thread nD τ).loc main_arg10)) (ix1 j) := funext fun j => shapeCast_a_1a_apply _ shapeCasts_S4_S1x4 (0 : Fin 1) j
  rw [h2, h3]

/-- The run, read: every weakly fair execution terminates, nothing faulting, with the result array at `out` of the
    launch arrays and every argument array as launched. -/
theorem run : θ_run defs (onTc (τ := τ) (main (F := Ideal))) ⟨m, fun _ => 0, ρ⟩ (fun r => ∀ c : Dev nD,
      r.2.mem ((c.tc : Thread nD τ).loc main_v24) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (result m ρ c), (h c).2⟩) (Named.run_named m ρ)

end Cert.KernelIdeal.Result

end
-- ==== Proof.RefSide.lean ====
/-
  The reference, one node at a time.  Its first dense layer is the product of the scaled aggregate with the
  128 x 64 weights plus the bias broadcast over the nodes: at node `r`, feature `j`, the first dense layer of row `r`
  of ITS aggregate.  Its last stage is the hidden layer, the logits and jnp's softmax (maximum over the four classes
  from minus infinity, shifted exponentials, their sum from zero, the quotient): at node `r`, class `j`, the second
  stage of row `r` of its second aggregate.  The two aggregates themselves are never opened.
-/
import proofs.«112523_j14242111554120_1_alg».proof.Proof.Gen.ReferenceIdeal.Run
import proofs.«112523_j14242111554120_1_alg».proof.Proof.Gen.ReferenceIdeal.Read
import proofs.«112523_j14242111554120_1_alg».proof.Proof.Spec
import Idealize.ShloMosaic.Lib.ValueIdx
import Idealize.ShloMosaic.PureOps.Ideal.Laws

noncomputable section

namespace Cert.ReferenceIdeal.Nodes

open Cert.ReferenceIdeal Cert.ReferenceIdeal.Gen Cert.ReferenceIdeal.Read Idealize.ShloMosaic Idealize.ShloMosaic.ValueIdx

/-- The reference's second aggregate of ANY hidden array: its rows gathered along the sources, added from zero into
    the destinations' rows. -/
def aggregate64 {F : FTy → Type} [FloatOps F] (h : (⟨S50000x64, .f32⟩ : BufTy).Contents (Elt F)) (s d : (⟨S600000, .i32⟩ : BufTy).Contents (Elt F)) :
    (⟨S50000x64, .f32⟩ : BufTy).Contents (Elt F) :=
  Host.scatterAdd scatter_S50000x64_S600000x1_S600000x64_1_0_0_1 (val_main_v23 (F := F)) (val_main_v24 (F := F) d)
    (Host.gather gather_S50000x64_S600000x1_S600000x64_1_0_n_n_0_1_164 h (val_main_v21 (F := F) s))

theorem second_aggregate (x0 : (⟨S50000x128, .f32⟩ : BufTy).Contents (Elt Ideal)) (x1 x2 : (⟨S600000, .i32⟩ : BufTy).Contents (Elt Ideal)) (x3 : (⟨S1x128, .f32⟩ : BufTy).Contents (Elt Ideal)) (x4 : (⟨S128x64, .f32⟩ : BufTy).Contents (Elt Ideal)) (x5 : (⟨S64, .f32⟩ : BufTy).Contents (Elt Ideal)) :
    val_main_v25 (F := Ideal) x0 x1 x2 x3 x4 x5 = aggregate64 (val_main_v15 (F := Ideal) x0 x1 x2 x3 x4 x5) x1 x2 := rfl

/-! ## The first dense layer -/

theorem layer1_eq (x0 : (⟨S50000x128, .f32⟩ : BufTy).Contents (Elt Ideal)) (x1 x2 : (⟨S600000, .i32⟩ : BufTy).Contents (Elt Ideal)) (x3 : (⟨S1x128, .f32⟩ : BufTy).Contents (Elt Ideal)) (x4 : (⟨S128x64, .f32⟩ : BufTy).Contents (Elt Ideal)) (x5 : (⟨S64, .f32⟩ : BufTy).Contents (Elt Ideal)) :
    val_main_v15 (F := Ideal) x0 x1 x2 x3 x4 x5
      = NodeRows.nodes1 (val_main_v9 (F := Ideal) x0 x1 x2) x3 x4 (fun j => x5 (ix1 j)) := by
  funext i
  obtain ⟨r, j, rfl⟩ : ∃ (r : Fin 50000) (j : Fin 64), i = ix2 r j := ⟨i 0, i 1, eq_ix2 i⟩
  rw [NodeRows.nodes1_apply]
  unfold NodeRows.layer1
  rw [val_main_v15_apply, val_main_v12_apply, val_main_v14_apply, val_main_v13_apply]
  have e1 : ∀ k : Fin 128, lidx_main_v12 (ix2 r j) k = ix2 r k := fun k =>
    funext fun a => Fin.ext (by match a with | ⟨0, _⟩ => rfl | ⟨1, _⟩ => rfl)
  have e2 : ∀ k : Fin 128, ridx_main_v12 (ix2 r j) k = ix2 k j := fun k =>
    funext fun a => Fin.ext (by match a with | ⟨0, _⟩ => rfl | ⟨1, _⟩ => rfl)
  have e3 : idx_main_v13 (idx_main_v14 (ix2 r j)) = ix1 j :=
    funext fun a => Fin.ext (by match a with | ⟨0, _⟩ => rfl)
  have e4 : ∀ k : Fin 128, idx_main_v10 (ix2 r k) = ix2 (0 : Fin 1) k := fun k =>
    funext fun a => Fin.ext (by match a with | ⟨0, _⟩ => rfl | ⟨1, _⟩ => rfl)
  rw [Ideal.addf_def]
  refine congrArg₂ (· + ·) (Finset.sum_congr rfl fun k _ => ?_) (congrArg x5 e3)
  rw [e1 k, e2 k, val_main_v11_apply, val_main_v10_apply, e4 k, Ideal.mulf_def]

/-! ## The hidden layer, the logits and the softmax -/

section
variable (x0 : (⟨S50000x128, .f32⟩ : BufTy).Contents (Elt Ideal)) (x1 x2 : (⟨S600000, .i32⟩ : BufTy).Contents (Elt Ideal)) (x3 : (⟨S1x128, .f32⟩ : BufTy).Contents (Elt Ideal)) (x4 : (⟨S128x64, .f32⟩ : BufTy).Contents (Elt Ideal)) (x5 : (⟨S64, .f32⟩ : BufTy).Contents (Elt Ideal)) (x6 : (⟨S1x64, .f32⟩ : BufTy).Contents (Elt Ideal)) (x7 : (⟨S64x32, .f32⟩ : BufTy).Contents (Elt Ideal)) (x8 : (⟨S32, .f32⟩ : BufTy).Contents (Elt Ideal)) (x9 : (⟨S32x4, .f32⟩ : BufTy).Contents (Elt Ideal)) (x10 : (⟨S4, .f32⟩ : BufTy).Contents (Elt Ideal))

/-- The reduction over the four classes, as the index-inserting form the fold lemma wants. -/
theorem classes : S50000x4.Reduces [1] S50000 := by decide

/-- The reference's logits at node `r`, class `j`, from row `r` of its second aggregate. -/
theorem logits_eq (r : Fin 50000) (j : Fin 4) :
    val_main_v35 (F := Ideal) x0 x1 x2 x3 x4 x5 x6 x7 x8 x9 x10 (ix2 r j)
      = NodeRows.logits (NodeRows.hidden (fun k => val_main_v25 (F := Ideal) x0 x1 x2 x3 x4 x5 (ix2 r k)) (fun k => x6 (ix2 (0 : Fin 1) k))
          (fun k j => x7 (ix2 k j)) (fun j => x8 (ix1 j))) (fun k j => x9 (ix2 k j)) (fun j => x10 (ix1 j)) j := by
  unfold NodeRows.logits NodeRows.hidden
  have e1 : ∀ k : Fin 32, lidx_main_v32 (ix2 r j) k = ix2 r k := fun k => funext fun a => Fin.ext (by match a with | ⟨0, _⟩ => rfl | ⟨1, _⟩ => rfl)
  have e2 : ∀ k : Fin 32, ridx_main_v32 (ix2 r j) k = ix2 k j := fun k => funext fun a => Fin.ext (by match a with | ⟨0, _⟩ => rfl | ⟨1, _⟩ => rfl)
  have e3 : idx_main_v33 (idx_main_v34 (ix2 r j)) = ix1 j := funext fun a => Fin.ext (by match a with | ⟨0, _⟩ => rfl)
  rw [val_main_v35_apply, val_main_v32_apply, val_main_v34_apply, val_main_v33_apply, Ideal.addf_def]
  refine congrArg₂ (· + ·) (Finset.sum_congr rfl fun k _ => ?_) (congrArg x10 e3)
  rw [e1 k, e2 k]
  refine congrArg (· * x9 (ix2 k j)) ?_
  have f1 : ∀ k' : Fin 64, lidx_main_v28 (ix2 r k) k' = ix2 r k' := fun k' => funext fun a => Fin.ext (by match a with | ⟨0, _⟩ => rfl | ⟨1, _⟩ => rfl)
  have f2 : ∀ k' : Fin 64, ridx_main_v28 (ix2 r k) k' = ix2 k' k := fun k' => funext fun a => Fin.ext (by match a with | ⟨0, _⟩ => rfl | ⟨1, _⟩ => rfl)
  have f3 : idx_main_v29 (idx_main_v30 (ix2 r k)) = ix1 k := funext fun a => Fin.ext (by match a with | ⟨0, _⟩ => rfl)
  have f4 : ∀ k' : Fin 64, idx_main_v26 (ix2 r k') = ix2 (0 : Fin 1) k' := fun k' => funext fun a => Fin.ext (by match a with | ⟨0, _⟩ => rfl | ⟨1, _⟩ => rfl)
  rw [val_main_v31_apply, val_main_v28_apply, val_main_v30_apply, val_main_v29_apply, Ideal.addf_def]
  refine congrArg₂ (· + ·) (Finset.sum_congr rfl fun k' _ => ?_) (congrArg x8 f3)
  rw [f1 k', f2 k', val_main_v27_apply, val_main_v26_apply, f4 k', Ideal.mulf_def]

/-- The reference's row maximum at node `r`: the fold of `max` over the four logits from minus infinity, and `max` with
    minus infinity once more. -/
theorem rowmax_eq (r : Fin 50000) :
    val_main_v38 (F := Ideal) x0 x1 x2 x3 x4 x5 x6 x7 x8 x9 x10 (ix1 r) = NodeRows.rowMax (fun k => val_main_v35 (F := Ideal) x0 x1 x2 x3 x4 x5 x6 x7 x8 x9 x10 (ix2 r k)) := by
  rw [val_main_v38_apply, val_main_v37_apply, val_main_cst_5_apply]
  unfold val_main_v36 NodeRows.rowMax NodeRows.bottom
  generalize val_main_v35 (F := Ideal) x0 x1 x2 x3 x4 x5 x6 x7 x8 x9 x10 = z
  rw [Ideal.maximumf_def, Ideal.ofBits_def]
  refine congrArg (max (Ideal.ofBits .f32 0xFF800000#32)) ?_
  have e : (z ∘ classes.lift (ix1 r)) = fun k => z (ix2 r k) :=
    funext fun k => congrArg z (funext fun a => Fin.ext (by match a with | ⟨0, _⟩ => rfl | ⟨1, _⟩ => rfl))
  rw [Host.reduce_eq_fold_single (FloatOps.maximumf (F := Ideal) (φ := .f32)) z _ reducesTo_S50000x4_S50000_d1 classes h_S_ (ix1 r), e]
  rfl

/-- The reference's shifted exponential at node `r`, class `j`. -/
theorem exp_eq (r : Fin 50000) (j : Fin 4) :
    val_main_v42 (F := Ideal) x0 x1 x2 x3 x4 x5 x6 x7 x8 x9 x10 (ix2 r j) = NodeRows.shiftedExp (fun k => val_main_v35 (F := Ideal) x0 x1 x2 x3 x4 x5 x6 x7 x8 x9 x10 (ix2 r k)) j := by
  rw [val_main_v42_apply, val_main_v41_apply, val_main_v40_apply, val_main_v39_apply]
  have e : idx_main_v39 (idx_main_v40 (ix2 r j)) = ix1 r := funext fun a => Fin.ext (by match a with | ⟨0, _⟩ => rfl)
  rw [e, rowmax_eq]
  unfold NodeRows.shiftedExp
  rw [Ideal.hostUnary_exp_def, Ideal.subf_def]

/-- The reference's result is the second stage of every node of its second aggregate. -/
theorem layer2_eq :
    val_main_v46 (F := Ideal) x0 x1 x2 x3 x4 x5 x6 x7 x8 x9 x10
      = NodeRows.nodes2 (val_main_v25 (F := Ideal) x0 x1 x2 x3 x4 x5) x6 x7 (fun j => x8 (ix1 j)) x9 (fun j => x10 (ix1 j)) := by
  funext i
  obtain ⟨r, j, rfl⟩ : ∃ (r : Fin 50000) (j : Fin 4), i = ix2 r j := ⟨i 0, i 1, eq_ix2 i⟩
  rw [NodeRows.nodes2_apply]
  unfold NodeRows.layer2 NodeRows.softmax
  have e : ∀ k : Fin 4, idx_main_v43 (idx_main_v44 (idx_main_v45 (ix2 r j))) k = ix2 r k := fun k => funext fun a => Fin.ext (by match a with | ⟨0, _⟩ => rfl | ⟨1, _⟩ => rfl)
  have hz : (fun k => val_main_v35 (F := Ideal) x0 x1 x2 x3 x4 x5 x6 x7 x8 x9 x10 (ix2 r k))
      = NodeRows.logits (NodeRows.hidden (fun k => val_main_v25 (F := Ideal) x0 x1 x2 x3 x4 x5 (ix2 r k)) (fun k => x6 (ix2 (0 : Fin 1) k))
          (fun k j => x7 (ix2 k j)) (fun j => x8 (ix1 j))) (fun k j => x9 (ix2 k j)) (fun j => x10 (ix1 j)) :=
    funext fun k => logits_eq x0 x1 x2 x3 x4 x5 x6 x7 x8 x9 x10 r k
  rw [val_main_v46_apply, val_main_v45_apply, val_main_v44_apply, val_main_v43_apply, val_main_cst_6_apply, Ideal.hostDivf_def,
    Ideal.ofBits_def, Ideal.ofBits_zero_f32, zero_add, exp_eq, hz]
  refine congrArg (Ideal.div _) (Finset.sum_congr rfl fun k _ => ?_)
  rw [e k, exp_eq, hz]

end

end Cert.ReferenceIdeal.Nodes

end
-- ==== Proof.Bridge.lean ====
/-
  The two programs compute one function.  Both build their aggregates with the same host operations (the same
  gather and scatter-add records, the same index normalisation), so those are the same functions of their operands;
  on top of them both sides are the first dense layer and the second stage of every node, which the two sides' own
  modules have already read as the same row functions.  No law of the extended reals beyond that is needed: the kernel
  tiles the nodes and the reference does not, and a node's result depends on that node's row only.
-/
import proofs.«112523_j14242111554120_1_alg».proof.Defs
import proofs.«112523_j14242111554120_1_alg».proof.Proof.Gen.Pre_finite_inputs
import proofs.«112523_j14242111554120_1_alg».proof.Proof.KernelValue
import proofs.«112523_j14242111554120_1_alg».proof.Proof.RefSide

noncomputable section

namespace Cert.Proof.Bridge

open Idealize.ShloMosaic Idealize.ShloMosaic.TcCoe Idealize.SL.Sem

/-- The reference's first aggregate is the kernel program's: the same operations with the same records. -/
theorem aggregate128_eq (x : (⟨Cert.ReferenceIdeal.S50000x128, .f32⟩ : BufTy).Contents (Elt Ideal))
    (s d : (⟨Cert.ReferenceIdeal.S600000, .i32⟩ : BufTy).Contents (Elt Ideal)) :
    Cert.ReferenceIdeal.Read.val_main_v9 (F := Ideal) x s d = Cert.KernelIdeal.Host.aggregate128 (F := Ideal) x s d := rfl

/-- The reference's second aggregate of any hidden array is the kernel program's. -/
theorem aggregate64_eq (h : (⟨Cert.ReferenceIdeal.S50000x64, .f32⟩ : BufTy).Contents (Elt Ideal))
    (s d : (⟨Cert.ReferenceIdeal.S600000, .i32⟩ : BufTy).Contents (Elt Ideal)) :
    Cert.ReferenceIdeal.Nodes.aggregate64 (F := Ideal) h s d = Cert.KernelIdeal.Host.aggregate64 (F := Ideal) h s d := rfl

/-- The reference's result is the kernel program's function of the same eleven arrays. -/
theorem reference_eq (x0 : (⟨Cert.ReferenceIdeal.S50000x128, .f32⟩ : BufTy).Contents (Elt Ideal)) (x1 x2 : (⟨Cert.ReferenceIdeal.S600000, .i32⟩ : BufTy).Contents (Elt Ideal)) (x3 : (⟨Cert.ReferenceIdeal.S1x128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal)) (x6 : (⟨Cert.ReferenceIdeal.S1x64, .f32⟩ : BufTy).Contents (Elt Ideal)) (x7 : (⟨Cert.ReferenceIdeal.S64x32, .f32⟩ : BufTy).Contents (Elt Ideal)) (x8 : (⟨Cert.ReferenceIdeal.S32, .f32⟩ : BufTy).Contents (Elt Ideal)) (x9 : (⟨Cert.ReferenceIdeal.S32x4, .f32⟩ : BufTy).Contents (Elt Ideal)) (x10 : (⟨Cert.ReferenceIdeal.S4, .f32⟩ : BufTy).Contents (Elt Ideal)) :
    Cert.ReferenceIdeal.Read.val_main_v46 (F := Ideal) x0 x1 x2 x3 x4 x5 x6 x7 x8 x9 x10 = Cert.KernelIdeal.Result.out x0 x1 x2 x3 x4 x5 x6 x7 x8 x9 x10 := by
  rw [Cert.ReferenceIdeal.Nodes.layer2_eq, Cert.ReferenceIdeal.Nodes.second_aggregate, Cert.ReferenceIdeal.Nodes.layer1_eq,
    aggregate128_eq, aggregate64_eq]
  rfl

/-- Both idealized programs, from memories that agree on the arguments, end with the same result array. -/
theorem algebraic : Cert.algebraic_KernelIdeal_ReferenceIdeal := by
  intro m ρ m' ρ' _ hagree
  refine ⟨fun c => Cert.KernelIdeal.Result.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v46_eq, a0, a1, a2, a3, a4, a5, a6, a7, a8, a9, a10]
  exact reference_eq _ _ _ _ _ _ _ _ _ _ _

end Cert.Proof.Bridge

end
-- ==== Proof.lean ====
/-
  A two-layer graph network on 50000 nodes and 600000 edges.  Each layer first aggregates: the rows of the node
  array are gathered along the edge sources and added into the rows of the edge destinations.  The kernel program
  leaves the two aggregations to the host and runs two tiled kernels on the dense part: the first scales the
  aggregate, contracts it with a 128 x 64 matrix and adds a bias; the second does the same with a 64 x 32 matrix,
  contracts once more with a 32 x 4 matrix and its bias, and takes a softmax over the four classes.  The reference
  does all of it on whole arrays.

  At the exact values the two agree because every dense step acts on each node's row separately: a block of 5000
  rows of the kernel's result is the reference's result on those rows (a matrix product into a zero accumulator is
  the sum the host's product is, a lane reduction is the host's reduction, the bf16 casts are the identity), and the
  aggregations are the same host operations on both sides.  The precondition is not used.

  The three frames: the two kernel programs' are generated; the reference's is its generated run with the result
  dropped.  The idealization rewrote nothing, so there is nothing to preserve.
-/
import proofs.«112523_j14242111554120_1_alg».proof.Defs
import proofs.«112523_j14242111554120_1_alg».proof.Proof.Gen.Kernel
import proofs.«112523_j14242111554120_1_alg».proof.Proof.Gen.Kernel.Skeleton
import proofs.«112523_j14242111554120_1_alg».proof.Proof.Gen.Kernel.Launch
import proofs.«112523_j14242111554120_1_alg».proof.Proof.Gen.Kernel.Points
import proofs.«112523_j14242111554120_1_alg».proof.Proof.Gen.Kernel.Frame
import proofs.«112523_j14242111554120_1_alg».proof.Proof.Gen.KernelIdeal
import proofs.«112523_j14242111554120_1_alg».proof.Proof.Gen.KernelIdeal.Skeleton
import proofs.«112523_j14242111554120_1_alg».proof.Proof.Gen.KernelIdeal.Launch
import proofs.«112523_j14242111554120_1_alg».proof.Proof.Gen.KernelIdeal.Points
import proofs.«112523_j14242111554120_1_alg».proof.Proof.Gen.KernelIdeal.Frame
import proofs.«112523_j14242111554120_1_alg».proof.Proof.Gen.ReferenceIdeal
import proofs.«112523_j14242111554120_1_alg».proof.Proof.Gen.ReferenceIdeal.Run
import proofs.«112523_j14242111554120_1_alg».proof.Proof.Gen.Pre_finite_inputs
import proofs.«112523_j14242111554120_1_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, Cert.Proof.Bridge.algebraic⟩

end Cert.Proof

end
